-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x256 .f32) (main_arg1 : IVec S1600000 32) (main_arg2 : IVec S1600000 32) (main_arg3 : FVec F S1600000 .f32) (main_arg4 : FVec F S256x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S1x64 : Shape := ⟨2, ![1, 64]⟩
abbrev S100000x64 : Shape := ⟨2, ![100000, 64]⟩
abbrev S5000x256 : Shape := ⟨2, ![5000, 256]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 24
  | .vmem => 6
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x64, .f32⟩
  | .hbm, ⟨5, _⟩ => ⟨S64, .f32⟩
  | .hbm, ⟨6, _⟩ => ⟨S1x64, .f32⟩
  | .hbm, ⟨7, _⟩ => ⟨S100000x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x1, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x64, .f32⟩
  | .hbm, ⟨5, _⟩ => ⟨S64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x1, .f32⟩
  | .hbm, ⟨20, _⟩ => ⟨S1600000x64, .f32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.Linear.lean ====
/-
  The dense layer both programs begin with, as one function of its three operands.

  For a table x of M rows and K columns, a weight matrix W of K rows and N columns and a bias b of N entries, the
  layer's entry (r, c) is  ∑ k, x (r, k) * W (k, c)  +  b c  over the extended reals. Two computations of it are
  read at an entry here: a row block's product accumulated from the zero array, its operands first changed of float
  format (which is the identity on the extended reals), plus the bias held as a one-row matrix and spread over the
  block's rows; and a whole-array product plus the bias spread over every row.
-/
import Idealize.ShloMosaic.Lib.ValueIdx
import Idealize.ShloMosaic.Lib.ValueLayout
import Idealize.ShloMosaic.Lib.Pipeline.Value
import Idealize.ShloMosaic.PureOps.Ideal.Laws
import proofs.«428174_j49271864819717_3_alg».proof.Proof.LibPlainDot

noncomputable section

namespace Cert.Linear

open Idealize.ShloMosaic Idealize.ShloMosaic.ValueIdx Idealize.ShloMosaic.PlainDot

variable {M K N : Nat}

/-- The layer: entry (r, c) is the row r of x against the column c of W, plus the bias at c. -/
def lin (x : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun j => (∑ k : Fin K, x (ix2 (j 0) k) * W (ix2 k (j 1))) + b (ix1 (j 1))

theorem lin_ix2 (x : (⟨2, ![M, K]⟩ : Shape).Idx → EReal) (W : (⟨2, ![K, N]⟩ : Shape).Idx → EReal)
    (b : (⟨1, ![N]⟩ : Shape).Idx → EReal) (r : Fin M) (c : Fin N) :
    lin x W b (ix2 r c) = (∑ k : Fin K, x (ix2 r k) * W (ix2 k c)) + b (ix1 c) := rfl

variable {d : DotDims (⟨2, ![M, K]⟩ : Shape) (⟨2, ![K, N]⟩ : Shape) (⟨2, ![M, N]⟩ : Shape)}

/-- A block of rows computed on the matrix unit: both operands narrowed to bf16 (no change over the extended reals),
    multiplied into the zero accumulator, and the one-row bias added to every row. At entry (p, q) it is the sum over
    k of x0 (p, k) * x1 (k, q), plus the bias row's entry q. -/
theorem block_apply (hd : IsPlain d) (x0 : FVec Ideal (⟨2, ![M, K]⟩ : Shape) .f32) (x1 : FVec Ideal (⟨2, ![K, N]⟩ : Shape) .f32)
    (x2 : FVec Ideal (⟨2, ![1, N]⟩ : Shape) .f32) (hbits : FTy.bits .bf16 < FTy.bits .f32)
    (hsc : (⟨2, ![1, N]⟩ : Shape).ShapeCasts (⟨2, ![1, N]⟩ : Shape)) (hbc : (⟨2, ![1, N]⟩ : Shape).Broadcasts (⟨2, ![M, N]⟩ : Shape))
    (p : Fin M) (q : Fin N) :
    addf (matmul d none (truncf .bf16 x0 hbits) (truncf .bf16 x1 hbits) (constant (⟨2, ![M, N]⟩ : Shape) .f32 0x00000000#32))
        (broadcastTo (⟨2, ![M, N]⟩ : Shape) (shapeCast (⟨2, ![1, N]⟩ : Shape) x2 hsc) hbc) (ix2 p q)
      = (∑ k : Fin K, x0 (ix2 p k) * x1 (ix2 k q)) + x2 (ix2 (0 : Fin 1) q) := by
  rw [addf_apply, broadcastTo_1b_ab_apply, shapeCast_self]
  refine congrArg (· + x2 (ix2 (0 : Fin 1) q)) ?_
  exact hd.matmul_zero_apply none (truncf .bf16 x0 hbits) (truncf .bf16 x1 hbits) p q

/-- The whole-array computation on the host: the product, plus the bias made a one-row matrix and spread over all
    rows. As a function it is the layer. -/
theorem host_eq (hd : IsPlain d) (x : FVec Ideal (⟨2, ![M, K]⟩ : Shape) .f32) (W : FVec Ideal (⟨2, ![K, N]⟩ : Shape) .f32)
    (b : FVec Ideal (⟨1, ![N]⟩ : Shape) .f32)
    (h1 : (⟨1, ![N]⟩ : Shape).BroadcastsInDim (⟨2, ![1, N]⟩ : Shape) (![1] : Fin 1 → Fin 2))
    (h2 : (⟨2, ![1, N]⟩ : Shape).BroadcastsInDim (⟨2, ![M, N]⟩ : Shape) (![0, 1] : Fin 2 → Fin 2)) :
    addf (Host.dotGeneral d none x W)
        (broadcastInDim (⟨2, ![M, N]⟩ : Shape) ![0, 1] h2 (broadcastInDim (⟨2, ![1, N]⟩ : Shape) ![1] h1 b))
      = lin x W b := by
  funext j
  obtain ⟨r, c, rfl⟩ : ∃ (r : Fin M) (c : Fin N), j = ix2 r c := ⟨j 0, j 1, eq_ix2 j⟩
  rw [addf_apply, lin_ix2]
  have hdot : Host.dotGeneral d none x W (ix2 r c) = ∑ k : Fin K, x (ix2 r k) * W (ix2 k c) :=
    hd.dotGeneral_apply none .single x W r c
  have hrow : broadcastInDim (⟨2, ![M, N]⟩ : Shape) ![0, 1] h2 (broadcastInDim (⟨2, ![1, N]⟩ : Shape) ![1] h1 b) (ix2 r c)
      = broadcastInDim (⟨2, ![1, N]⟩ : Shape) ![1] h1 b (ix2 (0 : Fin 1) c) :=
    broadcastInDim_apply _ h2 _ (ix2 r c) (ix2 (0 : Fin 1) c) (fun a => match a with
      | ⟨0, _⟩ => by show 0 = if (1 : Nat) = 1 then 0 else r.val; rw [if_pos rfl]
      | ⟨1, _⟩ => by
        show c.val = if N = 1 then 0 else c.val
        split
        · have := c.isLt; omega
        · rfl)
  have hvec : broadcastInDim (⟨2, ![1, N]⟩ : Shape) ![1] h1 b (ix2 (0 : Fin 1) c) = b (ix1 c) :=
    broadcastInDim_apply _ h1 b (ix2 (0 : Fin 1) c) (ix1 c) (fun a => match a with
      | ⟨0, _⟩ => by
        show c.val = if N = 1 then 0 else c.val
        split
        · have := c.isLt; omega
        · rfl)
  rw [hdot, hrow, hvec]

end Cert.Linear

end
-- ==== Proof.Aggregate.lean ====
/-
  The message-passing step both programs end with, as one function of the node table it reads.

  Given a table h of 100000 rows of 64 features, edge sources src, edge destinations dst and edge weights w
  (1600000 of each), every edge e reads the row of h at src e (a negative source counted from the table's end),
  scales it by w e, and the scaled rows are added, edge by edge, into the row dst e of an all-zero table. The step is
  stated once, over whatever dimension records and shape facts a program carries, and is never opened: the two
  programs are compared through the table h they hand to it.
-/
import Idealize.ShloMosaic.PureOps
import Idealize.ShloMosaic.PureOps.Ideal

noncomputable section

namespace Cert.Aggregate

open Idealize.ShloMosaic

/-- The node table, the edge list, the edge list as a column, and the edge messages. -/
abbrev Nodes : Shape := ⟨2, ![100000, 64]⟩
abbrev Edges : Shape := ⟨1, ![1600000]⟩
abbrev EdgeCol : Shape := ⟨2, ![1600000, 1]⟩
abbrev Msgs : Shape := ⟨2, ![1600000, 64]⟩
abbrev Scalar0 : Shape := ⟨0, ![]⟩

/-- Gather the source rows, scale each by its edge's weight, and add them into the destination rows of a zero table. -/
def aggregate (g : GatherDims Nodes EdgeCol Msgs) (s : ScatterDims Nodes EdgeCol Msgs)
    (b0 : Scalar0.BroadcastsInDim Edges (![] : Fin 0 → Fin Edges.rank))
    (b1 : Edges.BroadcastsInDim EdgeCol (![0] : Fin 1 → Fin EdgeCol.rank))
    (b2 : EdgeCol.BroadcastsInDim Msgs (![0, 1] : Fin 2 → Fin Msgs.rank))
    (b3 : Scalar0.BroadcastsInDim Nodes (![] : Fin 0 → Fin Nodes.rank))
    (h : FVec Ideal Nodes .f32) (src dst : IVec Edges 32) (w : FVec Ideal Edges .f32) : FVec Ideal Nodes .f32 :=
  Host.scatterAdd (F := Ideal) s (broadcastInDim Nodes ![] b3 (constant (F := Ideal) Scalar0 .f32 0x00000000#32))
    (broadcastInDim EdgeCol ![0] b1 dst)
    (mulf
      (Host.gather g h
        (broadcastInDim EdgeCol ![0] b1
          (select (cmpi .slt src (broadcastInDim Edges ![] b0 (constantI Scalar0 32 0#32)))
            (addi src (broadcastInDim Edges ![] b0 (constantI Scalar0 32 100000#32))) src)))
      (broadcastInDim Msgs ![0, 1] b2 (broadcastInDim EdgeCol ![0] b1 w)))

end Cert.Aggregate

end
-- ==== Proof.KernelValue.lean ====
/-
  What the kernel's program leaves in its result, as a function of its arguments.

  The one region computes the dense layer in twenty blocks of 5000 rows: block t holds rows 5000·t … 5000·t + 4999 of
  the table, the weight matrix and the one-row bias are the same at every block, and the block written back is
  (rows of x) · W + bias. The blocks tile the layer's 100000 rows, so after the region the layer's array holds
  lin x W b whole. The host lines after the region then apply the message-passing step to it.
-/
import proofs.«428174_j49271864819717_3_alg».proof.Proof.Gen.KernelIdeal.Frame
import proofs.«428174_j49271864819717_3_alg».proof.Proof.Linear
import proofs.«428174_j49271864819717_3_alg».proof.Proof.Aggregate
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx Idealize.ShloMosaic.PlainDot
open Idealize.ShloMosaic.Pipeline (Dat)

variable (m : (ℓ : Loc nD τ sig) → Buf (Elt Ideal) ℓ) (ρ : Dev nD → PrngReg)

/-- The block product's dimension numbers are the plain ones. -/
theorem dot_plain : IsPlain dot_S5000x256_S256x64_S5000x64_1_0_0_1_n_n := ⟨rfl, rfl, rfl, rfl, rfl, rfl⟩

/-- The body's stored value at entry (p, q) of a block: row p of the table block against column q of the weights,
    plus the bias row's entry q. -/
theorem pay_apply (x0 : FVec Ideal S5000x256 .f32) (x1 : FVec Ideal S256x64 .f32) (x2 : FVec Ideal S1x64 .f32)
    (p : Fin 5000) (q : Fin 64) :
    k0_pay1 (F := Ideal) x0 x1 x2 (ix2 p q) = (∑ k : Fin 256, x0 (ix2 p k) * x1 (ix2 k q)) + x2 (ix2 (0 : Fin 1) q) := by
  unfold k0_pay1
  exact Cert.Linear.block_apply dot_plain x0 x1 x2 _ _ _ p q

/-- The arrays the region finds, at their literal types. -/
abbrev xarr (c : Dev nD) : FVec Ideal S100000x256 .f32 := V m c main_arg0
abbrev warr (c : Dev nD) : FVec Ideal S256x64 .f32 := V m c main_arg4
abbrev brow (c : Dev nD) : FVec Ideal S1x64 .f32 := V m c main_v0

/-- The layer over the arrays as the region finds them, the bias read off its one-row form. -/
def layer (c : Dev nD) : FVec Ideal S100000x64 .f32 :=
  Cert.Linear.lin (xarr m c) (warr m c) (fun i => brow m c (ix2 (0 : Fin 1) (i 0)))

theorem hz : (![0, 0] : Fin 2 → Nat) = fun _ => 0 := funext fun a => by fin_cases a <;> rfl

/-- The printed index maps over the twenty points: the table's and the result's blocks move down together, one block
    a point; the weights and the bias stay put. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the layer. -/
theorem flushed_eq (c : Dev nD) (t : Fin cfg0.N) :
    (dats m 0 c).flushed 3 t = ((cfg0.win 3).blk t).view.read (Elt Ideal) (layer m c) := by
  show (cfg0.win 3).cut (grid0.coords t) ((dats m 0 c).after 3 t) = _
  rw [after0_3]
  unfold out0_3
  rw [View.canon_unit_zero hz]
  simp only [View.ld_unit_zero (S := S5000x256) hz, View.ld_unit_zero (S := S256x64) hz, View.ld_unit_zero (S := S1x64) hz]
  funext j
  obtain ⟨p, q, rfl⟩ : ∃ (p : Fin 5000) (q : Fin 64), j = ix2 p q := ⟨j 0, j 1, eq_ix2 j⟩
  show k0_pay1 (F := Ideal) (iblk m c 0 t) (iblk m c 1 t) (iblk m c 2 t) (ix2 p q)
      = layer m c (((cfg0.win 3).blk t).view.emb (ix2 p q))
  refine (pay_apply (iblk m c 0 t) (iblk m c 1 t) (iblk m c 2 t) p q).trans ?_
  obtain ⟨e0, e1, e2, e3, e4, e5, e6, e7⟩ := idx_facts t
  -- each block entry is the array's entry at block index × block size + the coordinate inside the block
  have hx : ∀ k : Fin 256, iblk m c 0 t (ix2 p k)
      = xarr m c (ix2 ((((cfg0.win 3).blk t).view.emb (ix2 p q)) 0) k) := fun k => by
    show V m c main_arg0 (((cfg0.win 0).blk t).view.emb (ix2 p k)) = V m c main_arg0 _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  have hw : ∀ k : Fin 256, iblk m c 1 t (ix2 k q)
      = warr m c (ix2 k ((((cfg0.win 3).blk t).view.emb (ix2 p q)) 1)) := fun k => by
    show V m c main_arg4 (((cfg0.win 1).blk t).view.emb (ix2 k q)) = V m c main_arg4 _
    refine congrArg _ (funext fun a => Fin.ext ?_)
    match a with
    | ⟨0, _⟩ => show win0_1.index t (0 : Fin 2) * 256 + 1 * k.val = k.val; omega
    | ⟨1, _⟩ => show win0_1.index t (1 : Fin 2) * 64 + 1 * q.val = win0_3.index t (1 : Fin 2) * 64 + 1 * q.val; omega
  have hb : iblk m c 2 t (ix2 (0 : Fin 1) q)
      = brow m c (ix2 (0 : Fin 1) ((((cfg0.win 3).blk t).view.emb (ix2 p q)) 1)) := by
    show V m c main_v0 (((cfg0.win 2).blk t).view.emb (ix2 (0 : Fin 1) q)) = V m c main_v0 _
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  rw [hb, Finset.sum_congr rfl (fun k _ => by rw [hx k, hw k])]
  rfl

/-- An entry of the layer's array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v1).slice (win0_3.rect t)).set ↔ _
  rw [View.set_slice_whole, Rect.mem_set_unit]
  exact Iff.rfl

/-- Row r of the layer lies in the block of point r / 5000: the twenty blocks tile the array. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, -, -, e6, e7⟩ := idx_facts ⟨(i 0).val / 5000, hlt⟩
  have e6' : win0_3.index ⟨(i 0).val / 5000, hlt⟩ (0 : Fin 2) = (i 0).val / 5000 := e6
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    omega
  | ⟨1, _⟩ =>
    show win0_3.index ⟨(i 0).val / 5000, hlt⟩ (1 : Fin 2) * 64 ≤ (i 1).val
      ∧ (i 1).val < win0_3.index ⟨(i 0).val / 5000, hlt⟩ (1 : Fin 2) * 64 + 64
    omega

/-- After the region the layer's array is the layer, whole. -/
theorem final (c : Dev nD) : (dats m 0 c).arrAt 3 cfg0.N = layer m c :=
  (dats m 0 c).arrAt_eq_of_cover 3 (layer m c) (fun t _ => flushed_eq m c t) cover

/-- The one host line before the region lays the bias out as a one-row matrix. -/
theorem brow_eq (c : Dev nD) :
    brow m c = shapeCast S1x64 (m ((c : Thread nD τ).loc main_arg5)) shapeCasts_S64_S1x64 := by
  show StableHlo.after hostOps0 (fun b => m (c, b)) (Proc.devRef .tc main_v0) = _
  after_results
  rfl

/-- The layer the region computed is the layer of the program's arguments. -/
theorem layer_eq (c : Dev nD) :
    layer m c = Cert.Linear.lin (m ((c : Thread nD τ).loc main_arg0)) (m ((c : Thread nD τ).loc main_arg4))
      (m ((c : Thread nD τ).loc main_arg5)) := by
  unfold layer
  have hx : xarr m c = m ((c : Thread nD τ).loc main_arg0) := V_main_arg0 m c
  have hw : warr m c = m ((c : Thread nD τ).loc main_arg4) := V_main_arg4 m c
  rw [hx, hw, brow_eq]
  refine congrArg (Cert.Linear.lin _ _) (funext fun i => ?_)
  obtain ⟨q, rfl⟩ : ∃ q : Fin 64, i = ix1 q := ⟨i 0, eq_ix1 i⟩
  exact shapeCast_a_1a_apply _ _ (0 : Fin 1) q

/-- The host lines after the region: the message-passing step applied to the layer's array. -/
theorem tail_eq (c : Dev nD) :
    Pipeline.afterTail₀ cfgs (dats m) 0 (V0 m) [hostOps1] c main_v14
      = Cert.Aggregate.aggregate gather_S100000x64_S1600000x1_S1600000x64_1_0_n_n_0_1_164
          scatter_S100000x64_S1600000x1_S1600000x64_1_0_0_1 bcast_S_S1600000 bcast_S1600000_S1600000x1_0
          bcast_S1600000x1_S1600000x64_0_1 bcast_S_S100000x64
          ((dats m 0 c).arrAt 3 cfg0.N) (m ((c : Thread nD τ).loc main_arg1)) (m ((c : Thread nD τ).loc main_arg2))
          (m ((c : Thread nD τ).loc main_arg3)) := by
  unfold Pipeline.afterTail₀
  show StableHlo.after hostOps1 _ (Proc.devRef .tc main_v14) = _
  after_results
  -- the lines after the region read the layer's array as the region left it and the edge arrays as launched
  have h1 : Pipeline.withArrays (cfgs 0).spec c (V0 m c) (fun w => (dats m 0 c).arrAt w (cfgs 0).N)
      (Proc.devRef .tc main_arg1) = m ((c : Thread nD τ).loc main_arg1) :=
    (Pipeline.withArrays_of_ne _ c (V0 m c) _ main_arg1
      (by exact (by decide : ∀ w, Pipeline.arrRef spec0 w ≠ main_arg1))).trans (V_main_arg1 m c)
  have h2 : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  have h3 : Pipeline.withArrays (cfgs 0).spec c (V0 m c) (fun w => (dats m 0 c).arrAt w (cfgs 0).N)
      (Proc.devRef .tc main_arg3) = m ((c : Thread nD τ).loc main_arg3) :=
    (Pipeline.withArrays_of_ne _ c (V0 m c) _ main_arg3
      (by exact (by decide : ∀ w, Pipeline.arrRef spec0 w ≠ main_arg3))).trans (V_main_arg3 m c)
  have hv : Pipeline.withArrays (cfgs 0).spec c (V0 m c) (fun w => (dats m 0 c).arrAt w (cfgs 0).N)
      (Proc.devRef .tc main_v1) = (dats m 0 c).arrAt 3 cfg0.N :=
    Pipeline.withArrays_arr spec0 launch0.win.arr_inj c _ _ 3
  rw [h1, h2, h3, hv]
  rfl

/-- Every execution of the kernel's program ends with its result at the message-passing step of lin x W b, and its
    arguments unchanged. -/
theorem run : θ_run defs (onTc (τ := τ) (main (F := Ideal))) ⟨m, fun _ => 0, ρ⟩ fun r => ∀ c : Dev nD,
      r.2.mem ((c.tc : Thread nD τ).loc main_v14)
        = Cert.Aggregate.aggregate gather_S100000x64_S1600000x1_S1600000x64_1_0_n_n_0_1_164
            scatter_S100000x64_S1600000x1_S1600000x64_1_0_0_1 bcast_S_S1600000 bcast_S1600000_S1600000x1_0
            bcast_S1600000x1_S1600000x64_0_1 bcast_S_S100000x64
            (Cert.Linear.lin (m ((c.tc : Thread nD τ).loc main_arg0)) (m ((c.tc : Thread nD τ).loc main_arg4))
              (m ((c.tc : Thread nD τ).loc main_arg5)))
            (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v14 (Pipeline.mem_restRefs_of main_v14 (by decide) (by decide))).trans
        ((tail_eq m c).trans (by rw [final, layer_eq])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c)⟩)
    (run_main m ρ)

end Cert.KernelIdeal.Dense

end
-- ==== Proof.RefValue.lean ====
/-
  What the reference program leaves in its result, as a function of its arguments.

  The reference computes the dense layer in one piece — the product of the whole table with the weights, plus the bias
  spread over every row — and applies the message-passing step to it. Over the extended reals that first part is
  lin x W b, entry by entry.
-/
import proofs.«428174_j49271864819717_3_alg».proof.Proof.Gen.ReferenceIdeal.Run
import proofs.«428174_j49271864819717_3_alg».proof.Proof.Linear
import proofs.«428174_j49271864819717_3_alg».proof.Proof.Aggregate

noncomputable section

namespace Cert.ReferenceIdeal.Dense

open Cert.ReferenceIdeal Cert.ReferenceIdeal.Gen Idealize.ShloMosaic Idealize.ShloMosaic.TcCoe Idealize.SL.Sem
open Idealize.ShloMosaic.PlainDot

/-- The whole product's dimension numbers are the plain ones. -/
theorem dot_plain : IsPlain dot_S100000x256_S256x64_S100000x64_1_0_0_1_n_n := ⟨rfl, rfl, rfl, rfl, rfl, rfl⟩

/-- Every execution of the reference ends with its result at the message-passing step of lin x W b, and its
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
        = Cert.Aggregate.aggregate gather_S100000x64_S1600000x1_S1600000x64_1_0_n_n_0_1_164
            scatter_S100000x64_S1600000x1_S1600000x64_1_0_0_1 bcast_S_S1600000 bcast_S1600000_S1600000x1_0
            bcast_S1600000x1_S1600000x64_0_1 bcast_S_S100000x64
            (Cert.Linear.lin (m ((c.tc : Thread nD τ).loc main_arg0)) (m ((c.tc : Thread nD τ).loc main_arg4))
              (m ((c.tc : Thread nD τ).loc main_arg5)))
            (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans
      (congrArg (fun H => Cert.Aggregate.aggregate gather_S100000x64_S1600000x1_S1600000x64_1_0_n_n_0_1_164
          scatter_S100000x64_S1600000x1_S1600000x64_1_0_0_1 bcast_S_S1600000 bcast_S1600000_S1600000x1_0
          bcast_S1600000x1_S1600000x64_0_1 bcast_S_S100000x64 H
          (m ((c.tc : Thread nD τ).loc main_arg1)) (m ((c.tc : Thread nD τ).loc main_arg2))
          (m ((c.tc : Thread nD τ).loc main_arg3)))
        (Cert.Linear.host_eq dot_plain (m ((c.tc : Thread nD τ).loc main_arg0)) (m ((c.tc : Thread nD τ).loc main_arg4))
          (m ((c.tc : Thread nD τ).loc main_arg5)) bcast_S64_S1x64_1 bcast_S1x64_S100000x64_0_1)),
      (h c).2⟩)
    (Cert.ReferenceIdeal.Value.run (F := Ideal) m ρ)

end Cert.ReferenceIdeal.Dense

end
-- ==== Proof.lean ====
/-
  A graph-convolution layer: a dense layer h = x · W + b over 100000 nodes (256 features in, 64 out), then for each
  of 1600000 weighted edges the row of h at the edge's source, scaled by the edge's weight, added into the row of the
  result at the edge's destination.

  The kernel's program computes h in twenty row blocks on the matrix unit (its operands narrowed to bf16 first, which
  over the extended reals changes nothing, and the product accumulated from zero), the reference in one host product;
  entry by entry both are  ∑ k, x (r, k) * W (k, c) + b c  (Proof/Linear.lean; the kernel's blocks assembled in
  Proof/KernelValue.lean, the reference's term in Proof/RefValue.lean). Both programs then apply the same gather,
  scaling and scatter-add to h (Proof/Aggregate.lean states that step once; it is never opened). Equal tables in,
  equal results out: no law beyond the identification of the two sums is needed, and the finiteness of the inputs is
  never used.

  The three frames: the two kernel programs' are the generated frame certificates; the reference's is its run with the
  result dropped. The ideal pass rewrote nothing, so the idealization claim is trivial.
-/
import proofs.«428174_j49271864819717_3_alg».proof.Defs
import proofs.«428174_j49271864819717_3_alg».proof.Proof.Gen.Kernel
import proofs.«428174_j49271864819717_3_alg».proof.Proof.Gen.Kernel.Skeleton
import proofs.«428174_j49271864819717_3_alg».proof.Proof.Gen.Kernel.Launch
import proofs.«428174_j49271864819717_3_alg».proof.Proof.Gen.Kernel.Points
import proofs.«428174_j49271864819717_3_alg».proof.Proof.Gen.Kernel.Frame
import proofs.«428174_j49271864819717_3_alg».proof.Proof.Gen.KernelIdeal
import proofs.«428174_j49271864819717_3_alg».proof.Proof.Gen.KernelIdeal.Skeleton
import proofs.«428174_j49271864819717_3_alg».proof.Proof.Gen.KernelIdeal.Launch
import proofs.«428174_j49271864819717_3_alg».proof.Proof.Gen.KernelIdeal.Points
import proofs.«428174_j49271864819717_3_alg».proof.Proof.Gen.KernelIdeal.Frame
import proofs.«428174_j49271864819717_3_alg».proof.Proof.Gen.ReferenceIdeal
import proofs.«428174_j49271864819717_3_alg».proof.Proof.Gen.ReferenceIdeal.Run
import proofs.«428174_j49271864819717_3_alg».proof.Proof.Gen.Pre_finite_inputs
import proofs.«428174_j49271864819717_3_alg».proof.Proof.KernelValue
import proofs.«428174_j49271864819717_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the message-passing step of the same
    table lin x W b over the same edge arrays. -/
theorem algebraic : Cert.algebraic_KernelIdeal_ReferenceIdeal := by
  intro m ρ m' ρ' _ hagree
  refine ⟨_, Cert.KernelIdeal.Dense.run m ρ, ?_⟩
  refine (θ_run Cert.ReferenceIdeal.defs _ _).mono (fun _ h c => ⟨(h c).1.trans ?_, (h c).2⟩)
    (Cert.ReferenceIdeal.Dense.run m' ρ')
  rw [(hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
